-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4 .f32) : IVec S_ 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  main_v3
-- ==== Kernel.lean ====
abbrev S4096x4 : Shape := ⟨2, ![4096, 4]⟩
abbrev S1x8x4096x4096 : Shape := ⟨4, ![1, 8, 4096, 4096]⟩
abbrev S256x4 : Shape := ⟨2, ![256, 4]⟩
abbrev S1x8x256x256 : Shape := ⟨4, ![1, 8, 256, 256]⟩
abbrev S4x256 : Shape := ⟨2, ![4, 256]⟩
abbrev S4x256x1 : Shape := ⟨3, ![4, 256, 1]⟩
abbrev S4x256x256 : Shape := ⟨3, ![4, 256, 256]⟩
abbrev S4x1x256 : Shape := ⟨3, ![4, 1, 256]⟩
abbrev S8x256x256 : Shape := ⟨3, ![8, 256, 256]⟩

abbrev nBuf : Space → Nat
  | .hbm => 2
  | .vmem => 6
  | .smem => 0
  | _ => 0

abbrev bufTy : (tb : Table) → Fin (tcTables nBuf tb) → BufTy
  | .hbm, ⟨0, _⟩ => ⟨S4096x4, .f32⟩
  | .hbm, ⟨1, _⟩ => ⟨S1x8x4096x4096, .f32⟩
  | .local _ .vmem, ⟨0, _⟩ => ⟨S256x4, .f32⟩
  | .local _ .vmem, ⟨1, _⟩ => ⟨S256x4, .f32⟩
  | .local _ .vmem, ⟨2, _⟩ => ⟨S256x4, .f32⟩
  | .local _ .vmem, ⟨3, _⟩ => ⟨S256x4, .f32⟩
  | .local _ .vmem, ⟨4, _⟩ => ⟨S1x8x256x256, .f32⟩
  | .local _ .vmem, ⟨5, _⟩ => ⟨S1x8x256x256, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x4_S256x4_0_0 : ∀ a, (![0, 0] : Fin 2 → Nat) a + S256x4.size a ≤ S256x4.size a
  h_S256x4 : 0 < S256x4.numel
  transposes_S256x4_p1_0_S4x256 : S256x4.Transposes [1, 0] S4x256
  shapeCasts_S4x256_S4x256x1 : S4x256.ShapeCasts S4x256x1
  shapeCasts_S4x256x1_S4x256x1 : S4x256x1.ShapeCasts S4x256x1
  broadcasts_S4x256x1_S4x256x256 : S4x256x1.Broadcasts S4x256x256
  shapeCasts_S4x256_S4x1x256 : S4x256.ShapeCasts S4x1x256
  shapeCasts_S4x1x256_S4x1x256 : S4x1x256.ShapeCasts S4x1x256
  broadcasts_S4x1x256_S4x256x256 : S4x1x256.Broadcasts S4x256x256
  concatenates_S4x256x256_S4x256x256_S8x256x256_d0 : Shape.Concatenates [S4x256x256, S4x256x256] S8x256x256 0
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  shapeCasts_S8x256x256_S1x8x256x256 : S8x256x256.ShapeCasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S4096x4.size a
  hwx0_0 : ∀ i : grid0.Coords, EltTy.bits .f32 = 32 ∨ (Rect.block (s := S4096x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S4096x4.size a
  hwx0_1 : ∀ i : grid0.Coords, EltTy.bits .f32 = 32 ∨ (Rect.block (s := S4096x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S1x8x4096x4096.size a
  hwx0_2 : ∀ i : grid0.Coords, EltTy.bits .f32 = 32 ∨ (Rect.block (s := S1x8x4096x4096) S1x8x256x256.size (cc0_transform_2 i) (hinb0_2 i)).WholeWords (EltTy.packing .f32)

variable [Facts₀]

abbrev win0_0 : Pipeline.Window sig grid0 :=
  Pipeline.Window.ofSpec (Memref.whole main_arg0) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4 : Shape := ⟨2, ![4096, 4]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S8x4096x4096 : Shape := ⟨3, ![8, 4096, 4096]⟩
abbrev S1x8x4096x4096 : Shape := ⟨4, ![1, 8, 4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x4096x4096, .f32⟩
  | .hbm, ⟨4, _⟩ => ⟨S4x1x4096, .f32⟩
  | .hbm, ⟨5, _⟩ => ⟨S4x4096x4096, .f32⟩
  | .hbm, ⟨6, _⟩ => ⟨S8x4096x4096, .f32⟩
  | .hbm, ⟨7, _⟩ => ⟨S1x8x4096x4096, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  concatenates_S4x4096x4096_S4x4096x4096_S8x4096x4096_d0 : Shape.Concatenates [S4x4096x4096, S4x4096x4096] S8x4096x4096 0
  bcast_S8x4096x4096_S1x8x4096x4096_1_2_3 : S8x4096x4096.BroadcastsInDim S1x8x4096x4096 (![1, 2, 3] : Fin 3 → Fin S1x8x4096x4096.rank)

variable [Facts₀]

class Facts : Prop extends Facts₀ where

variable [Facts]
-- ==== Proof.IdealRun.lean ====
/-
  The idealized kernel's run. One grid of 16 × 16 points; at point (i, j) the kernel is handed rows
  256·i … 256·i+255 of the 4096 × 4 input through one window and rows 256·j … 256·j+255 of THE SAME input
  through a second window, and writes the [1, 8, 256, 256] tile (i, j) of the result. Because two windows
  read one array, the array is lent to the two windows at complementary half shares; the output array is
  held outright. The body is a pure re-laying of its two input blocks (no arithmetic), so what it leaves in
  the output tile is one function of the two blocks, and both input blocks are left in place.

  Stated for every float instance F: the same text serves the word-level program.
-/
import proofs.«162009_j16647293239442_1_alg».proof.Proof.Gen.KernelIdeal.Launch
import proofs.«162009_j16647293239442_1_alg».proof.Proof.Gen.KernelIdeal.Skeleton
import proofs.«162009_j16647293239442_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the region alone, so the region finds every array as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window w's block at point t: the rows of its array the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's buffer holds its block at every point: it is fetched only when the row index moves
    (every sixteenth point), and between fetches the body leaves the block in place. -/
theorem rowBefore_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's buffer holds its block at every point (it is fetched at every point). -/
theorem colBefore_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

abbrev rIn : Rect S256x4 := Rect.unit (s := S256x4) ![0, 0] S256x4.size inb_S256x4_S256x4_0_0
abbrev rOut : Rect S1x8x256x256 := Rect.unit (s := S1x8x256x256) ![0, 0, 0, 0] S1x8x256x256.size inb_S1x8x256x256_S1x8x256x256_0_0_0_0

/-- The output tile after the body: its one whole-tile store of the re-laid input blocks. -/
def tile (x0 : Vec F S256x4 .f32) (x1 : Vec F S256x4 .f32) : Vec F S1x8x256x256 .f32 :=
  View.canon [⟨rOut, k0_pay1 (View.ld x0 rIn) (View.ld x1 rIn)⟩]

/-- The one store covers the tile. -/
theorem tile_cover (p0 : Vec F S1x8x256x256 .f32) (y : S1x8x256x256.Idx) :
    ∃ pc ∈ ([⟨rOut, p0⟩] : List (View.Piece (Elt F) S1x8x256x256 .f32)), y ∈ pc.1.set :=
  View.cover_of_tiled [⟨rOut, p0⟩] S1x8x256x256.size (by rfl) y

/-! ## The body's triple -/

set_option maxHeartbeats 1000000 in
/-- On whole staging memrefs, the inputs' reading x0 and x1 and the output's holding anything, the body ends
    with the inputs' unchanged and the output's at the tile of x0 and x1. The body also loads the output
    buffer before storing into it; that value is not used. -/
theorem sound_kernel (c : Dev nD) (E : Set ℕ) (i : grid0.Coords)
    (arg2 : Memref sig .tc .vmem S256x4 .f32) (harg2 : arg2.IsWhole) (arg3 : Memref sig .tc .vmem S256x4 .f32) (harg3 : arg3.IsWhole)
    (arg4 : Memref sig .tc .vmem S1x8x256x256 .f32) (harg4 : arg4.IsWhole)
    (x0 : Vec F S256x4 .f32) (x1 : Vec F S256x4 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__embed_kernel i arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The arrays as the region finds them; after the body at point t each input buffer at its block and the
    output buffer at the tile of the two blocks; the invariant is the core's scoped buffers that are no staging
    buffer (there are none); the shared input array is lent at the left half share to the row window and at the
    right half share to the column window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_row (c : Dev nD) (t : Fin cfg0.N) : (dats m 0 c).after 0 t = iblk m c 0 t := by dsimp only [dats]
theorem after_col (c : Dev nD) (t : Fin cfg0.N) : (dats m 0 c).after 1 t = iblk m c 1 t := by dsimp only [dats]
theorem after_out (c : Dev nD) (t : Fin cfg0.N) : (dats m 0 c).after 2 t = tile (iblk m c 0 t) (iblk m c 1 t) := by dsimp only [dats]

theorem before_row (c : Dev nD) (t : Fin cfg0.N) (d) : (dats m 0 c).before 0 t d = iblk m c 0 t :=
  rowBefore_of m (dats m 0 c) (A_eq m c 0) (after_row m c) t d
theorem before_col (c : Dev nD) (t : Fin cfg0.N) (d) : (dats m 0 c).before 1 t d = iblk m c 1 t :=
  colBefore_of m (dats m 0 c) (A_eq m c 1) (after_col m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_row, before_col]
  rw [show (dats m 0 c).Φ t.succ = (dats m 0 c).Φ t.castSucc from rfl,
    show (dats m 0 c).owesAt () t.succ = (dats m 0 c).owesAt () t.castSucc from rfl,
    after_row, after_col, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.IdealLaunch.lean ====
/-
  The launch of the idealized kernel's one region, and what its run leaves in the arrays.
-/
import proofs.«162009_j16647293239442_1_alg».proof.Proof.IdealRun

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hsplit (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg0, main_v0] (by decide) (by decide)]
  have e0 : (cfg0.win 0).arr.view.set = Finset.univ := (arr_whole0 0).set_eq_univ
  have e2 : (cfg0.win 2).arr.view.set = Finset.univ := (arr_whole0 2).set_eq_univ
  rw [e0, e2]
  show iprop(((c.tc : Thread nD τ).loc main_arg0 ↦{fullShare} m ((c.tc : Thread nD τ).loc main_arg0))
      ∗ ((c.tc : Thread nD τ).loc main_v0 ↦{fullShare} m ((c.tc : Thread nD τ).loc main_v0)))
    ⊢ iprop(((c.tc : Thread nD τ).loc main_arg0 ↦{fullShare.left} m ((c.tc : Thread nD τ).loc main_arg0))
      ∗ ((c.tc : Thread nD τ).loc main_arg0 ↦{fullShare.right} m ((c.tc : Thread nD τ).loc main_arg0))
      ∗ ((c.tc : Thread nD τ).loc main_v0 ↦{fullShare} m ((c.tc : Thread nD τ).loc main_v0)))
  iintro ⟨Ha, Hv⟩
  ihave Ha := (pointsTo_share (PosShare.mem_left_op_right fullShare)).1 $$ Ha
  icases Ha with ⟨Ha1, Ha2⟩
  isplitl [Ha1]; · iexact Ha1
  isplitl [Ha2]; · iexact Ha2
  iexact Hv

/-! ## The run -/

set_option backward.isDefEq.respectTransparency.types false in
/-- From any memory with zero counters every weakly fair execution of the program terminates, and every final
    state has each window's array at what the write-backs of all 256 points leave of its entry contents. The
    launch lends the shared input array to its two windows by halves (above); no scoped buffer beside the staging
    buffers and no unscoped buffer beside the two arrays exists, so nothing else is routed. -/
theorem run_main : θ_run defs (onTc (τ := τ) (main (F := F))) (s₀ m ρ)
    (fun r => ∀ c : Dev nD, ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp)) (Z := fun _ => iprop(emp))
    (hX := fun c => by rw [unscopedRest0_eq]; iintro -; isplitl [] <;> iempintro)
    (hin := fun c => by rw [show (dats m 0 c).Φ 0 = Pipeline.scopedRest (cfgs 0).spec c from rfl]; iintro ⟨-, H⟩; iexact H)
    (hout := fun c => by rw [show (dats m 0 c).Φ (Fin.last (cfgs 0).N) = Pipeline.scopedRest (cfgs 0).spec c from rfl]; iintro H; isplitr [H]; · iempintro
                         iexact H)
    (QY := fun _ _ => True)
    (hY := fun c s' => by iintro ⟨-, -, H⟩; imodintro; isplitr [H]; · ipureintro; trivial
                          iexact H)
    (hQ := fun s h c w => (h c).1 w)

/-- The argument array ends as launched: both windows on it are inputs, and an input's array is never written. -/
theorem kept_arg (c : Dev nD) : (dats m 0 c).arrAt 0 (cfgs 0).N = m ((c.tc : Thread nD τ).loc main_arg0) :=
  ((dats m 0 c).arrAt_in 0 rfl _).trans (A_eq m c 0)

/-- The frame: the program runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (kept_arg m c)) (run_main m ρ)

/-- The run with the result array named: what the 256 write-backs leave of it. -/
theorem run_out : θ_run defs (onTc (τ := τ) (main (F := F))) ⟨m, fun _ => 0, ρ⟩ (fun r => ∀ c : Dev nD,
      r.2.mem ((c.tc : Thread nD τ).loc main_v0) = (dats m 0 c).arrAt 2 (cfgs 0).N
      ∧ r.2.mem ((c.tc : Thread nD τ).loc main_arg0) = m ((c.tc : Thread nD τ).loc main_arg0)) :=
  (θ_run defs _ _).mono (fun _ h c => ⟨(h c) 2, ((h c) 0).trans (kept_arg m c)⟩) (run_main m ρ)

end Cert.KernelIdeal.Run

end
-- ==== Proof.TileValue.lean ====
/-
  What the kernel body stores, read at one element. The body transposes each 256 × 4 block to 4 × 256, views the
  row block as [4, 256, 1] and the column block as [4, 1, 256], broadcasts both to [4, 256, 256], joins them along
  the channel axis to [8, 256, 256] and adds a leading unit axis. So the tile at (0, ch, r, s) is the row block's
  entry (r, ch) for ch < 4 and the column block's entry (s, ch − 4) for ch ≥ 4.
-/
import proofs.«162009_j16647293239442_1_alg».proof.Proof.Gen.KernelIdeal.Skeleton
import Idealize.ShloMosaic.Lib.Pipeline.Value
import Idealize.ShloMosaic.Lib.ValueIdx

noncomputable section

namespace Cert.KernelIdeal.Tile

open Cert.KernelIdeal Cert.KernelIdeal.Gen
open Idealize.ShloMosaic Idealize.ShloMosaic.ValueIdx

variable {F : FTy → Type} [FloatOps F]

/-- On the first four channels the stored tile holds the row block's entry. -/
theorem pay_row (x0 x1 : Vec F S256x4 .f32) (y : S1x8x256x256.Idx) (h : (y 1).val < 4) :
    k0_pay1 x0 x1 y = x0 (ix2 (⟨(y 2).val, (y 2).isLt⟩ : Fin 256) (⟨(y 1).val, h⟩ : Fin 4)) := by
  unfold k0_pay1
  dsimp only
  -- the added leading axis
  refine (shapeCast_apply _ _ y
    (ix3 (⟨(y 1).val, (y 1).isLt⟩ : Fin 8) (⟨(y 2).val, (y 2).isLt⟩ : Fin 256) (⟨(y 3).val, (y 3).isLt⟩ : Fin 256)) ?_).trans ?_
  · have h0 : (y 0).val = 0 := by have h1 : (y 0).val < 1 := (y 0).isLt; omega
    rw [Shape.rowMajor_val_three, Shape.rowMajor_val_four]
    show ((y 1).val * 256 + (y 2).val) * 256 + (y 3).val = (((y 0).val * 8 + (y 1).val) * 256 + (y 2).val) * 256 + (y 3).val
    rw [h0]; omega
  -- the join along the channel axis: the first piece
  refine (concatenate_pair_apply_left (t := S8x256x256) (s₁ := S4x256x256) (s₂ := S4x256x256) 0 _ _ _ _ rfl
    (ix3 (⟨(y 1).val, h⟩ : Fin 4) (⟨(y 2).val, (y 2).isLt⟩ : Fin 256) (⟨(y 3).val, (y 3).isLt⟩ : Fin 256))
    (fun b => match b with | ⟨0, _⟩ => rfl | ⟨1, _⟩ => rfl | ⟨2, _⟩ => rfl)).trans ?_
  -- the broadcast along the column position
  refine (broadcastTo_apply _ _ _
    (ix3 (⟨(y 1).val, h⟩ : Fin 4) (⟨(y 2).val, (y 2).isLt⟩ : Fin 256) (⟨0, Nat.one_pos⟩ : Fin 1))
    (fun a => match a with
      | ⟨0, _⟩ => by show (y 1).val = if (4 : Nat) = 1 then 0 else (y 1).val; rw [if_neg (by decide)]
      | ⟨1, _⟩ => by show (y 2).val = if (256 : Nat) = 1 then 0 else (y 2).val; rw [if_neg (by decide)]
      | ⟨2, _⟩ => by show 0 = if (1 : Nat) = 1 then 0 else (y 3).val; rw [if_pos rfl])).trans ?_
  rw [shapeCast_self]
  -- the trailing unit axis
  refine (shapeCast_apply _ _ _ (ix2 (⟨(y 1).val, h⟩ : Fin 4) (⟨(y 2).val, (y 2).isLt⟩ : Fin 256)) ?_).trans ?_
  · rw [Shape.rowMajor_val_two, Shape.rowMajor_val_three]
    show (y 1).val * 256 + (y 2).val = ((y 1).val * 256 + (y 2).val) * 1 + 0
    omega
  -- the transpose
  exact transpose_apply _ _ _ _ _ (fun b => match b with | ⟨0, _⟩ => rfl | ⟨1, _⟩ => rfl)

/-- On the last four channels it holds the column block's entry. -/
theorem pay_col (x0 x1 : Vec F S256x4 .f32) (y : S1x8x256x256.Idx) (h : ¬ (y 1).val < 4) :
    k0_pay1 x0 x1 y = x1 (ix2 (⟨(y 3).val, (y 3).isLt⟩ : Fin 256)
      (⟨(y 1).val - 4, by have h8 : (y 1).val < 8 := (y 1).isLt; omega⟩ : Fin 4)) := by
  have h8 : (y 1).val < 8 := (y 1).isLt
  unfold k0_pay1
  dsimp only
  refine (shapeCast_apply _ _ y
    (ix3 (⟨(y 1).val, (y 1).isLt⟩ : Fin 8) (⟨(y 2).val, (y 2).isLt⟩ : Fin 256) (⟨(y 3).val, (y 3).isLt⟩ : Fin 256)) ?_).trans ?_
  · have h0 : (y 0).val = 0 := by have h1 : (y 0).val < 1 := (y 0).isLt; omega
    rw [Shape.rowMajor_val_three, Shape.rowMajor_val_four]
    show ((y 1).val * 256 + (y 2).val) * 256 + (y 3).val = (((y 0).val * 8 + (y 1).val) * 256 + (y 2).val) * 256 + (y 3).val
    rw [h0]; omega
  -- the join along the channel axis: the second piece
  refine (concatenate_pair_apply_right (t := S8x256x256) (s₁ := S4x256x256) (s₂ := S4x256x256) 0 _ _ _ _ rfl rfl
    (ix3 (⟨(y 1).val - 4, by omega⟩ : Fin 4) (⟨(y 2).val, (y 2).isLt⟩ : Fin 256) (⟨(y 3).val, (y 3).isLt⟩ : Fin 256))
    (fun b => match b with
      | ⟨0, _⟩ => fun hb => (hb (Fin.ext rfl)).elim
      | ⟨1, _⟩ => fun _ => rfl
      | ⟨2, _⟩ => fun _ => rfl)
    (by show (y 1).val - 4 + 4 = (y 1).val; omega)).trans ?_
  -- the broadcast along the row position
  refine (broadcastTo_apply _ _ _
    (ix3 (⟨(y 1).val - 4, by omega⟩ : Fin 4) (⟨0, Nat.one_pos⟩ : Fin 1) (⟨(y 3).val, (y 3).isLt⟩ : Fin 256))
    (fun a => match a with
      | ⟨0, _⟩ => by show (y 1).val - 4 = if (4 : Nat) = 1 then 0 else (y 1).val - 4; rw [if_neg (by decide)]
      | ⟨1, _⟩ => by show 0 = if (1 : Nat) = 1 then 0 else (y 2).val; rw [if_pos rfl]
      | ⟨2, _⟩ => by show (y 3).val = if (256 : Nat) = 1 then 0 else (y 3).val; rw [if_neg (by decide)])).trans ?_
  rw [shapeCast_self]
  -- the middle unit axis
  refine (shapeCast_apply _ _ _ (ix2 (⟨(y 1).val - 4, by omega⟩ : Fin 4) (⟨(y 3).val, (y 3).isLt⟩ : Fin 256)) ?_).trans ?_
  · rw [Shape.rowMajor_val_two, Shape.rowMajor_val_three]
    show ((y 1).val - 4) * 256 + (y 3).val = (((y 1).val - 4) * 1 + 0) * 256 + (y 3).val
    omega
  exact transpose_apply _ _ _ _ _ (fun b => match b with | ⟨0, _⟩ => rfl | ⟨1, _⟩ => rfl)

end Cert.KernelIdeal.Tile

end
-- ==== Proof.PairSpec.lean ====
/-
  The specification both programs meet. The input is a table x of 4096 rows of 4 entries (one row per sequence
  position, one entry per base). The result has shape [1, 8, 4096, 4096]: at channel ch and positions (r, s) it
  holds, for ch < 4, entry ch of row r, and for ch ≥ 4, entry ch − 4 of row s — the two positions' rows laid one
  after the other along the channel axis. Every result element is ONE input element (the table is only re-laid),
  so the specification is a map of indices, the same for any type of elements.
-/
import Idealize.ShloMosaic.Lib.ValueIdx

noncomputable section

namespace Cert.Pairs

open Idealize.ShloMosaic Idealize.ShloMosaic.ValueIdx

/-- The table's shape and the result's. -/
abbrev STable : Shape := ⟨2, ![4096, 4]⟩
abbrev SPairs : Shape := ⟨4, ![1, 8, 4096, 4096]⟩

/-- Which table element the result holds at an index: row (j 2), entry (j 1) on the first four channels;
    row (j 3), entry (j 1) − 4 on the last four. -/
def src (j : SPairs.Idx) : STable.Idx :=
  if h : (j 1).val < 4 then ix2 (⟨(j 2).val, (j 2).isLt⟩ : Fin 4096) (⟨(j 1).val, h⟩ : Fin 4)
  else ix2 (⟨(j 3).val, (j 3).isLt⟩ : Fin 4096) (⟨(j 1).val - 4, by have h8 : (j 1).val < 8 := (j 1).isLt; omega⟩ : Fin 4)

/-- The pairwise feature map of a table. -/
def pairs {α : Type} (x : STable.Idx → α) : SPairs.Idx → α := fun j => x (src j)

theorem pairs_apply {α : Type} (x : STable.Idx → α) (j : SPairs.Idx) : pairs x j = x (src j) := rfl

/-- On the first four channels, the row position's entry. -/
theorem src_row (j : SPairs.Idx) (h : (j 1).val < 4) :
    src j = ix2 (⟨(j 2).val, (j 2).isLt⟩ : Fin 4096) (⟨(j 1).val, h⟩ : Fin 4) := by
  unfold src; rw [dif_pos h]

/-- On the last four channels, the column position's entry. -/
theorem src_col (j : SPairs.Idx) (h : ¬ (j 1).val < 4) :
    src j = ix2 (⟨(j 3).val, (j 3).isLt⟩ : Fin 4096)
      (⟨(j 1).val - 4, by have h8 : (j 1).val < 8 := (j 1).isLt; omega⟩ : Fin 4) := by
  unfold src; rw [dif_neg h]

end Cert.Pairs

end
-- ==== Proof.IdealValue.lean ====
/-
  From tiles to the array. Point t = 16·i + j of the grid reads rows 256·i … of the table through the row window
  and rows 256·j … through the column window, and writes tile (0, 0, i, j) of the result; the 256 tiles fill the
  result. Each tile is the corresponding block of the pairwise feature map of the table, so the whole result
  array after the run is that map.
-/
import proofs.«162009_j16647293239442_1_alg».proof.Proof.IdealLaunch
import proofs.«162009_j16647293239442_1_alg».proof.Proof.TileValue
import proofs.«162009_j16647293239442_1_alg».proof.Proof.PairSpec

set_option maxRecDepth 16384

noncomputable section

namespace Cert.KernelIdeal.Run

open Cert.KernelIdeal Cert.KernelIdeal.Gen Cert.KernelIdeal.Tile Cert.Pairs
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

theorem zero2 : (![0, 0] : Fin 2 → Nat) = fun _ => 0 := funext fun a => by fin_cases a <;> rfl
theorem zero4 : (![0, 0, 0, 0] : Fin 4 → Nat) = fun _ => 0 := funext fun a => by fin_cases a <;> rfl

/-- The index maps in closed form, decided over the grid: the row window follows the point's first coordinate
    t / 16, the column window its second t % 16, and the output tile both. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 4) = 0 ∧ win0_2.index t (1 : Fin 4) = 0
    ∧ win0_2.index t (2 : Fin 4) = t.val / 16 ∧ win0_2.index t (3 : Fin 4) = t.val % 16 :=
  (by decide +kernel : ∀ t : Fin grid0.N, _)

/-- The grid has 256 points. -/
theorem point_lt (t : Fin cfg0.N) : t.val < 256 := lt_of_lt_of_eq t.isLt N_0

/-- The table as the region finds it. -/
abbrev table (c : Dev nD) : STable.Idx → Elt F .f32 := m ((c.tc : Thread nD τ).loc main_arg0)

/-- The row window's block at an element: the table's row 256·(t / 16) + z₀. -/
theorem row_blk (c : Dev nD) (t : Fin cfg0.N) (z : S256x4.Idx) :
    iblk m c 0 t z = table m c (ix2 (⟨(t.val / 16) * 256 + (z 0).val, by have := point_lt t; have h : (z 0).val < 256 := (z 0).isLt; omega⟩ : Fin 4096) (⟨(z 1).val, (z 1).isLt⟩ : Fin 4)) := by
  obtain ⟨e0, e1, -⟩ := idx_facts t
  show V m c main_arg0 (((cfg0.win 0).blk t).view.emb z) = _
  refine congrArg _ (funext fun a => Fin.ext ?_)
  match a with
  | ⟨0, _⟩ => show win0_0.index t (0 : Fin 2) * 256 + 1 * (z 0).val = (t.val / 16) * 256 + (z 0).val; rw [e0]; omega
  | ⟨1, _⟩ => show win0_0.index t (1 : Fin 2) * 4 + 1 * (z 1).val = (z 1).val; rw [e1]; omega

/-- The column window's block at an element: the table's row 256·(t % 16) + z₀. -/
theorem col_blk (c : Dev nD) (t : Fin cfg0.N) (z : S256x4.Idx) :
    iblk m c 1 t z = table m c (ix2 (⟨(t.val % 16) * 256 + (z 0).val, by have h : (z 0).val < 256 := (z 0).isLt; omega⟩ : Fin 4096) (⟨(z 1).val, (z 1).isLt⟩ : Fin 4)) := by
  obtain ⟨-, -, e2, e3, -⟩ := idx_facts t
  show V m c main_arg0 (((cfg0.win 1).blk t).view.emb z) = _
  refine congrArg _ (funext fun a => Fin.ext ?_)
  match a with
  | ⟨0, _⟩ => show win0_1.index t (0 : Fin 2) * 256 + 1 * (z 0).val = (t.val % 16) * 256 + (z 0).val; rw [e2]; omega
  | ⟨1, _⟩ => show win0_1.index t (1 : Fin 2) * 4 + 1 * (z 1).val = (z 1).val; rw [e3]; omega

/-- What point t writes back is tile t of the pairwise feature map of the table: on the first four channels the
    tile's element is the row block's, which is the table's at the tile's row position; on the last four the column
    block's, which is the table's at the tile's column position. -/
theorem flushed_eq (c : Dev nD) (t : Fin cfg0.N) :
    (dats m 0 c).flushed 2 t = ((cfg0.win 2).blk t).view.read (Elt F) (pairs (table m c)) := by
  show (cfg0.win 2).cut (grid0.coords t) ((dats m 0 c).after 2 t) = _
  rw [after_out]
  unfold tile
  rw [View.canon_unit_zero zero4]
  simp only [View.ld_unit_zero (S := S256x4) zero2]
  obtain ⟨e0, e1, e2, e3, e4, e5, e6, e7⟩ := idx_facts t
  funext y
  show k0_pay1 (iblk m c 0 t) (iblk m c 1 t) y = pairs (table m c) (((cfg0.win 2).blk t).view.emb y)
  rw [pairs_apply]
  have hc : ((((cfg0.win 2).blk t).view.emb y) 1).val = (y 1).val := by
    show win0_2.index t (1 : Fin 4) * 8 + 1 * (y 1).val = (y 1).val; rw [e5]; omega
  by_cases h : (y 1).val < 4
  · refine (pay_row (iblk m c 0 t) (iblk m c 1 t) y h).trans ?_
    rw [row_blk, src_row _ (by rw [hc]; exact h)]
    refine congrArg _ (funext fun a => Fin.ext ?_)
    match a with
    | ⟨0, _⟩ => show (t.val / 16) * 256 + (y 2).val = win0_2.index t (2 : Fin 4) * 256 + 1 * (y 2).val; rw [e6]; omega
    | ⟨1, _⟩ => exact hc.symm
  · refine (pay_col (iblk m c 0 t) (iblk m c 1 t) y h).trans ?_
    rw [col_blk, src_col _ (by rw [hc]; exact h)]
    refine congrArg _ (funext fun a => Fin.ext ?_)
    match a with
    | ⟨0, _⟩ => show (t.val % 16) * 256 + (y 3).val = win0_2.index t (3 : Fin 4) * 256 + 1 * (y 3).val; rw [e7]; omega
    | ⟨1, _⟩ => show (y 1).val - 4 = ((((cfg0.win 2).blk t).view.emb y) 1).val - 4; rw [hc]

/-- An index of the result is in point t's tile iff each coordinate is in the tile's range on its axis. -/
theorem mem_tile (t : Fin cfg0.N) (i : S1x8x4096x4096.Idx) :
    i ∈ ((cfg0.win 2).blk t).view.set ↔ ∀ a : Fin 4, win0_2.index t a * S1x8x256x256.size a ≤ (i a).val ∧ (i a).val < win0_2.index t a * S1x8x256x256.size a + S1x8x256x256.size a := by
  show i ∈ ((View.whole main_v0).slice (win0_2.rect t)).set ↔ _
  rw [View.set_slice_whole, Rect.mem_set_unit]
  exact Iff.rfl

/-- The 256 tiles fill the result: position (r, s) lies in the tile of point 16·(r / 256) + s / 256. -/
theorem tiles_cover (i : S1x8x4096x4096.Idx) :
    ∃ t : Fin cfg0.N, (cfg0.win 2).flush t = true ∧ i ∈ ((cfg0.win 2).blk t).view.set := by
  have h0 : (i 0).val < 1 := (i 0).isLt
  have h1 : (i 1).val < 8 := (i 1).isLt
  have h2 : (i 2).val < 4096 := (i 2).isLt
  have h3 : (i 3).val < 4096 := (i 3).isLt
  have hN : cfg0.N = 256 := N_0
  obtain ⟨t, ht⟩ : ∃ t : Fin cfg0.N, t.val = (i 2).val / 256 * 16 + (i 3).val / 256 :=
    ⟨⟨(i 2).val / 256 * 16 + (i 3).val / 256, by rw [hN]; omega⟩, rfl⟩
  refine ⟨t, flush0_2 t, ?_⟩
  obtain ⟨-, -, -, -, e4, e5, e6, e7⟩ := idx_facts t
  rw [mem_tile]
  intro a
  match a with
  | ⟨0, _⟩ => show win0_2.index t (0 : Fin 4) * 1 ≤ (i 0).val ∧ (i 0).val < win0_2.index t (0 : Fin 4) * 1 + 1; rw [e4]; omega
  | ⟨1, _⟩ => show win0_2.index t (1 : Fin 4) * 8 ≤ (i 1).val ∧ (i 1).val < win0_2.index t (1 : Fin 4) * 8 + 8; rw [e5]; omega
  | ⟨2, _⟩ => show win0_2.index t (2 : Fin 4) * 256 ≤ (i 2).val ∧ (i 2).val < win0_2.index t (2 : Fin 4) * 256 + 256; rw [e6, ht]; omega
  | ⟨3, _⟩ => show win0_2.index t (3 : Fin 4) * 256 ≤ (i 3).val ∧ (i 3).val < win0_2.index t (3 : Fin 4) * 256 + 256; rw [e7, ht]; omega

/-- The result array after the run is the pairwise feature map of the table. -/
theorem final (c : Dev nD) : (dats m 0 c).arrAt 2 cfg0.N = pairs (table m c) :=
  (dats m 0 c).arrAt_eq_of_cover 2 (pairs (table m c)) (fun t _ => flushed_eq m c t) tiles_cover

/-- The run, read: the result at the pairwise feature map of the argument, the argument unchanged. -/
theorem run : θ_run defs (onTc (τ := τ) (main (F := F))) ⟨m, fun _ => 0, ρ⟩ (fun r => ∀ c : Dev nD,
      r.2.mem ((c.tc : Thread nD τ).loc main_v0) = pairs (m ((c.tc : Thread nD τ).loc main_arg0))
      ∧ r.2.mem ((c.tc : Thread nD τ).loc main_arg0) = m ((c.tc : Thread nD τ).loc main_arg0)) :=
  (θ_run defs _ _).mono (fun _ h c => ⟨(h c).1.trans (final m c), (h c).2⟩) (run_out m ρ)

end Cert.KernelIdeal.Run

end
-- ==== Proof.RefIsPairs.lean ====
/-
  The reference computes the pairwise feature map: its transpose, two pairs of broadcasts, the concatenation along
  the channel axis and the added leading axis each read ONE element of their operand, so the composed term at an
  index is the table at one index, and that index is the specification's.
-/
import proofs.«162009_j16647293239442_1_alg».proof.Proof.Gen.ReferenceIdeal.Read
import proofs.«162009_j16647293239442_1_alg».proof.Proof.PairSpec

noncomputable section

namespace Cert.ReferenceIdeal.RefValue

open Cert.ReferenceIdeal Cert.ReferenceIdeal.Gen Cert.ReferenceIdeal.Read
open Idealize.ShloMosaic Idealize.ShloMosaic.ValueIdx Cert.Pairs

variable {F : FTy → Type} [FloatOps F]

/-- The reference's result is the pairwise feature map of its argument. On the first four channels the
    concatenation reads its first piece (the table's transpose broadcast along the column position), on the last
    four its second (broadcast along the row position). -/
theorem ref_pairs (x : (⟨S4096x4, .f32⟩ : BufTy).Contents (Elt F)) : val_main_v6 (F := F) x = pairs x := by
  funext j
  rw [val_main_v6_apply, pairs_apply]
  unfold val_main_v5
  by_cases h : (j 1).val < 4
  · rw [src_row j h]
    rw [concatenate_pair_apply_left (t := S8x4096x4096) (s₁ := S4x4096x4096) (s₂ := S4x4096x4096) 0 _ _ _ (idx_main_v6 j) rfl
      (ix3 (⟨(j 1).val, h⟩ : Fin 4) (⟨(j 2).val, (j 2).isLt⟩ : Fin 4096) (⟨(j 3).val, (j 3).isLt⟩ : Fin 4096))
      (fun b => match b with | ⟨0, _⟩ => rfl | ⟨1, _⟩ => rfl | ⟨2, _⟩ => rfl)]
    rw [val_main_v2_apply, val_main_v1_apply, val_main_v0_apply]
    congr 1
    funext a
    match a with
    | ⟨0, _⟩ => rfl
    | ⟨1, _⟩ => rfl
  · rw [src_col j h]
    have h8 : (j 1).val < 8 := (j 1).isLt
    rw [concatenate_pair_apply_right (t := S8x4096x4096) (s₁ := S4x4096x4096) (s₂ := S4x4096x4096) 0 _ _ _ (idx_main_v6 j) rfl rfl
      (ix3 (⟨(j 1).val - 4, by omega⟩ : Fin 4) (⟨(j 2).val, (j 2).isLt⟩ : Fin 4096) (⟨(j 3).val, (j 3).isLt⟩ : Fin 4096))
      (fun b => match b with
        | ⟨0, _⟩ => fun hb => (hb (Fin.ext rfl)).elim
        | ⟨1, _⟩ => fun _ => rfl
        | ⟨2, _⟩ => fun _ => rfl)
      (by show (j 1).val - 4 + 4 = (j 1).val; omega)]
    rw [val_main_v4_apply, val_main_v3_apply, val_main_v0_apply]
    congr 1
    funext a
    match a with
    | ⟨0, _⟩ => rfl
    | ⟨1, _⟩ => rfl

end Cert.ReferenceIdeal.RefValue

end
-- ==== Proof.lean ====
/-
  The kernel and the reference both compute the pairwise feature map of a 4096 × 4 table x: the array of shape
  [1, 8, 4096, 4096] holding x[r, ch] at (0, ch, r, s) for ch < 4 and x[s, ch − 4] for ch ≥ 4. Nothing is
  computed on the elements — every result element is one table element — so the two results are equal for any
  contents of the table, and the finiteness precondition is not used.

  The kernel tiles the result in 16 × 16 tiles of [1, 8, 256, 256]; tile (i, j) is built from rows 256·i … of the
  table (read through one window) and rows 256·j … (read through a second window on the same array). Its run and
  the value of its result array are proved in Proof/IdealRun, IdealLaunch, TileValue and IdealValue, for every float
  instance; the word-level program's frame is the same text (Proof/BitsRun, BitsLaunch). The reference's transposes,
  broadcasts and concatenation are read one element at a time in Proof/RefIsPairs. The ideal pass rewrote nothing,
  so there is nothing to preserve.
-/
import proofs.«162009_j16647293239442_1_alg».proof.Defs
import proofs.«162009_j16647293239442_1_alg».proof.Proof.Gen.Kernel
import proofs.«162009_j16647293239442_1_alg».proof.Proof.Gen.KernelIdeal
import proofs.«162009_j16647293239442_1_alg».proof.Proof.Gen.ReferenceIdeal
import proofs.«162009_j16647293239442_1_alg».proof.Proof.Gen.Pre_finite_inputs
import proofs.«162009_j16647293239442_1_alg».proof.Proof.Gen.ReferenceIdeal.Run
import proofs.«162009_j16647293239442_1_alg».proof.Proof.Gen.ReferenceIdeal.Read
import proofs.«162009_j16647293239442_1_alg».proof.Proof.BitsLaunch
import proofs.«162009_j16647293239442_1_alg».proof.Proof.IdealValue
import proofs.«162009_j16647293239442_1_alg».proof.Proof.RefIsPairs

noncomputable section

namespace Cert.Proof

open Idealize.ShloMosaic Idealize.ShloMosaic.TcCoe Idealize.SL.Sem

/-- The word-level kernel runs to the end and leaves the table unchanged. -/
theorem frame_kernel : Cert.frame_Kernel := fun m ρ _ => Cert.Kernel.Run.frame m ρ

/-- So does the idealized kernel. -/
theorem frame_kernelIdeal : Cert.frame_KernelIdeal := fun m ρ _ => Cert.KernelIdeal.Run.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the pairwise feature map of the table they were given; the tables agree. -/
theorem algebraic : Cert.algebraic_KernelIdeal_ReferenceIdeal := by
  intro m ρ m' ρ' _ hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_pairs, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
